-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S150000 : Shape := ⟨1, ![150000]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S50000x512 .f32) (main_arg1 : IVec S150000 32) (main_arg2 : IVec S150000 32) (main_arg3 : FVec F S512x512 .f32) (main_arg4 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S50000x512 : Shape := ⟨2, ![50000, 512]⟩
abbrev S150000 : Shape := ⟨1, ![150000]⟩
abbrev S512x512 : Shape := ⟨2, ![512, 512]⟩
abbrev S512 : Shape := ⟨1, ![512]⟩
abbrev S_ : Shape := ⟨0, ![]⟩
abbrev S50000 : Shape := ⟨1, ![50000]⟩
abbrev S150000x1 : Shape := ⟨2, ![150000, 1]⟩
abbrev S50000x1 : Shape := ⟨2, ![50000, 1]⟩
abbrev S150000x512 : Shape := ⟨2, ![150000, 512]⟩
abbrev S1x512 : Shape := ⟨2, ![1, 512]⟩
abbrev S2000x512 : Shape := ⟨2, ![2000, 512]⟩

abbrev nBuf : Space → Nat
  | .hbm => 56
  | .vmem => 6
  | .smem => 0
  | _ => 0

abbrev bufTy : (tb : Table) → Fin (tcTables nBuf tb) → BufTy
  | .hbm, ⟨0, _⟩ => ⟨S50000x512, .f32⟩
  | .hbm, ⟨1, _⟩ => ⟨S150000, .i32⟩
  | .hbm, ⟨2, _⟩ => ⟨S150000, .i32⟩
  | .hbm, ⟨3, _⟩ => ⟨S512x512, .f32⟩
  | .hbm, ⟨4, _⟩ => ⟨S512, .f32⟩
  | .hbm, ⟨5, _⟩ => ⟨S_, .f32⟩
  | .hbm, ⟨6, _⟩ => ⟨S150000, .f32⟩
  | .hbm, ⟨7, _⟩ => ⟨S_, .f32⟩
  | .hbm, ⟨8, _⟩ => ⟨S50000, .f32⟩
  | .hbm, ⟨9, _⟩ => ⟨S150000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S150000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x512, .f32⟩
  | .hbm, ⟨37, _⟩ => ⟨S50000x512, .f32⟩
  | .hbm, ⟨38, _⟩ => ⟨S_, .i32⟩
  | .hbm, ⟨39, _⟩ => ⟨S150000, .i32⟩
  | .hbm, ⟨40, _⟩ => ⟨S150000, .i1⟩
  | .hbm, ⟨41, _⟩ => ⟨S_, .i32⟩
  | .hbm, ⟨42, _⟩ => ⟨S150000, .i32⟩
  | .hbm, ⟨43, _⟩ => ⟨S150000, .i32⟩
  | .hbm, ⟨44, _⟩ => ⟨S150000, .i32⟩
  | .hbm, ⟨45, _⟩ => ⟨S150000x1, .i32⟩
  | .hbm, ⟨46, _⟩ => ⟨S150000x512, .f32⟩
  | .hbm, ⟨47, _⟩ => ⟨S_, .f32⟩
  | .hbm, ⟨48, _⟩ => ⟨S50000x512, .f32⟩
  | .hbm, ⟨49, _⟩ => ⟨S150000x1, .i32⟩
  | .hbm, ⟨50, _⟩ => ⟨S50000x512, .f32⟩
  | .hbm, ⟨51, _⟩ => ⟨S50000x1, .f32⟩
  | .hbm, ⟨52, _⟩ => ⟨S50000x512, .f32⟩
  | .hbm, ⟨53, _⟩ => ⟨S50000x512, .f32⟩
  | .hbm, ⟨54, _⟩ => ⟨S1x512, .f32⟩
  | .hbm, ⟨55, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_cst_7 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_8 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_9 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S150000 : S_.BroadcastsInDim S150000 (![] : Fin 0 → Fin S150000.rank)
  bcast_S_S50000 : S_.BroadcastsInDim S50000 (![] : Fin 0 → Fin S50000.rank)
  bcast_S150000_S150000x1_0 : S150000.BroadcastsInDim S150000x1 (![0] : Fin 1 → Fin S150000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x512 : S_.BroadcastsInDim S50000x512 (![] : Fin 0 → Fin S50000x512.rank)
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  scatter_S50000_S150000x1_S150000_n_0_0_1_wf : ScatterDims.WF S50000 S150000x1 S150000 [] [0] [0] 1
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)

variable [Facts₀]

def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_v32) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x512 : Shape := ⟨2, ![50000, 512]⟩
abbrev S150000 : Shape := ⟨1, ![150000]⟩
abbrev S512x512 : Shape := ⟨2, ![512, 512]⟩
abbrev S512 : Shape := ⟨1, ![512]⟩
abbrev S_ : Shape := ⟨0, ![]⟩
abbrev S50000 : Shape := ⟨1, ![50000]⟩
abbrev S150000x1 : Shape := ⟨2, ![150000, 1]⟩
abbrev S50000x1 : Shape := ⟨2, ![50000, 1]⟩
abbrev S150000x512 : Shape := ⟨2, ![150000, 512]⟩
abbrev S1x512 : Shape := ⟨2, ![1, 512]⟩

abbrev nBuf : Space → Nat
  | .hbm => 61
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S150000, .i32⟩
  | .hbm, ⟨2, _⟩ => ⟨S150000, .i32⟩
  | .hbm, ⟨3, _⟩ => ⟨S512x512, .f32⟩
  | .hbm, ⟨4, _⟩ => ⟨S512, .f32⟩
  | .hbm, ⟨5, _⟩ => ⟨S_, .f32⟩
  | .hbm, ⟨6, _⟩ => ⟨S150000, .f32⟩
  | .hbm, ⟨7, _⟩ => ⟨S_, .f32⟩
  | .hbm, ⟨8, _⟩ => ⟨S50000, .f32⟩
  | .hbm, ⟨9, _⟩ => ⟨S150000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S150000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x512, .f32⟩
  | .hbm, ⟨37, _⟩ => ⟨S50000x512, .f32⟩
  | .hbm, ⟨38, _⟩ => ⟨S_, .i32⟩
  | .hbm, ⟨39, _⟩ => ⟨S150000, .i32⟩
  | .hbm, ⟨40, _⟩ => ⟨S150000, .i1⟩
  | .hbm, ⟨41, _⟩ => ⟨S_, .i32⟩
  | .hbm, ⟨42, _⟩ => ⟨S150000, .i32⟩
  | .hbm, ⟨43, _⟩ => ⟨S150000, .i32⟩
  | .hbm, ⟨44, _⟩ => ⟨S150000, .i32⟩
  | .hbm, ⟨45, _⟩ => ⟨S150000x1, .i32⟩
  | .hbm, ⟨46, _⟩ => ⟨S150000x512, .f32⟩
  | .hbm, ⟨47, _⟩ => ⟨S_, .f32⟩
  | .hbm, ⟨48, _⟩ => ⟨S50000x512, .f32⟩
  | .hbm, ⟨49, _⟩ => ⟨S150000x1, .i32⟩
  | .hbm, ⟨50, _⟩ => ⟨S50000x512, .f32⟩
  | .hbm, ⟨51, _⟩ => ⟨S50000x1, .f32⟩
  | .hbm, ⟨52, _⟩ => ⟨S50000x512, .f32⟩
  | .hbm, ⟨53, _⟩ => ⟨S50000x512, .f32⟩
  | .hbm, ⟨54, _⟩ => ⟨S50000x512, .f32⟩
  | .hbm, ⟨55, _⟩ => ⟨S1x512, .f32⟩
  | .hbm, ⟨56, _⟩ => ⟨S50000x512, .f32⟩
  | .hbm, ⟨57, _⟩ => ⟨S50000x512, .f32⟩
  | .hbm, ⟨58, _⟩ => ⟨S_, .f32⟩
  | .hbm, ⟨59, _⟩ => ⟨S50000x512, .f32⟩
  | .hbm, ⟨60, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_cst_7 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_8 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_9 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call2_cst : Ref sig .tc := ⟨.hbm, 58, rfl⟩
abbrev main_call2_v0 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  bcast_S_S150000 : S_.BroadcastsInDim S150000 (![] : Fin 0 → Fin S150000.rank)
  bcast_S_S50000 : S_.BroadcastsInDim S50000 (![] : Fin 0 → Fin S50000.rank)
  bcast_S150000_S150000x1_0 : S150000.BroadcastsInDim S150000x1 (![0] : Fin 1 → Fin S150000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  scatter_S50000_S150000x1_S150000_n_0_0_1_wf : ScatterDims.WF S50000 S150000x1 S150000 [] [0] [0] 1
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  dot_S50000x512_S512x512_S50000x512_1_0_0_1_n_n_wf : DotDims.WF S50000x512 S512x512 S50000x512 [1] [0] [0] [1] [] []

variable [Facts₀]

def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.BlockValue.lean ====
/-
  What one grid point computes, entry by entry.

  The body of the kernel loads a block `a` of 2000 rows of aggregated features, the whole weight matrix `w` and the bias
  as a table `bb` of one row, and stores max (a · w + bias, 0). At the extended reals the narrowing of the two operands
  to a shorter float format is the identity, the matrix unit's product into a zero accumulator is the plain sum over
  the contracted index, and the one-row table is repeated down the rows; so entry (p, q) of what is stored is

      max (∑ k, a (p, k) · w (k, q) + bb (0, q)) 0.
-/
import proofs.«154558_j74818330296985_1_alg».proof.Proof.Gen.KernelIdeal.Skeleton
import proofs.«154558_j74818330296985_1_alg».proof.Proof.LibPlainDot
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-- The bias table of one row, repeated down 2000 rows, read at (p, q): the table's entry (0, q). -/
theorem bias_rows (bb : FVec Ideal S1x512 .f32) (p : Fin 2000) (q : Fin 512) :
    broadcastTo S2000x512 bb Facts₀.broadcasts_S1x512_S2000x512 (ix2 p q) = bb (ix2 0 q) := by
  refine broadcastTo_apply bb _ (ix2 p q) (ix2 0 q) ?_
  intro a
  match a with
  | ⟨0, _⟩ => show 0 = if (1 : Nat) = 1 then 0 else _; rw [if_pos rfl]
  | ⟨1, _⟩ => show q.val = if (512 : Nat) = 1 then 0 else q.val; rw [if_neg (by decide)]

/-- Entry (p, q) of what the body stores, from the three blocks it loads. -/
theorem stored_entry (a : Vec Ideal S2000x512 .f32) (w : Vec Ideal S512x512 .f32) (bb : Vec Ideal S1x512 .f32)
    (p : Fin 2000) (q : Fin 512) :
    k0_pay1 (F := Ideal) a w bb (ix2 p q) = max ((∑ k : Fin 512, a (ix2 p k) * w (ix2 k q)) + bb (ix2 0 q)) 0 := by
  unfold k0_pay1
  rw [maximumf_apply, addf_apply, broadcast_apply, shapeCast_self, shapeCast_self, bias_rows]
  simp only [matmul]
  rw [Cert.LibPlainDot.matmul_zero_apply _ rfl rfl rfl rfl rfl rfl]
  simp only [truncf_apply]
  show max _ (Ideal.ofBits .f32 0x00000000#32) = _
  rw [Ideal.ofBits_zero_f32]

end Cert.KernelIdeal.BlockValue

end
-- ==== Proof.DenseLayer.lean ====
/-
  One dense layer applied to aggregated node features, entry by entry.

  For an array `agg` of 50000 rows of 512 aggregated features, a 512 × 512 weight matrix `W` and a bias `b` of length 512,
  entry (n, o) of the layer's output is

      max (∑ k, agg (n, k) · W (k, o) + b o) 0

  on the extended reals: the n-th row of the matrix product agg · W, the bias added, the rectifier applied. Row n of
  the output depends on row n of `agg` only (and on all of `W` and `b`), which is why the rows may be computed in
  separate blocks of consecutive rows.
-/
import Idealize.ShloMosaic.PureOps.Ideal.Laws
import Idealize.ShloMosaic.Lib.ValueIdx

noncomputable section

namespace Cert.DenseLayer

open Idealize.ShloMosaic Idealize.ShloMosaic.ValueIdx

/-- Entry (n, o) of relu (agg · W + b). -/
def entry (agg : FVec Ideal ⟨2, ![50000, 512]⟩ .f32) (W : FVec Ideal ⟨2, ![512, 512]⟩ .f32) (b : FVec Ideal ⟨1, ![512]⟩ .f32)
    (n : Fin 50000) (o : Fin 512) : EReal :=
  max ((∑ k : Fin 512, agg (ix2 n k) * W (ix2 k o)) + b (ix1 o)) 0

/-- relu (agg · W + b) as one array. -/
def layer (agg : FVec Ideal ⟨2, ![50000, 512]⟩ .f32) (W : FVec Ideal ⟨2, ![512, 512]⟩ .f32) (b : FVec Ideal ⟨1, ![512]⟩ .f32) :
    FVec Ideal ⟨2, ![50000, 512]⟩ .f32 :=
  fun i => entry agg W b (i 0) (i 1)

theorem layer_apply (agg : FVec Ideal ⟨2, ![50000, 512]⟩ .f32) (W : FVec Ideal ⟨2, ![512, 512]⟩ .f32) (b : FVec Ideal ⟨1, ![512]⟩ .f32)
    (n : Fin 50000) (o : Fin 512) : layer agg W b (ix2 n o) = entry agg W b n o := rfl

end Cert.DenseLayer

end
-- ==== Proof.KernelLayer.lean ====
/-
  The kernel's output array is the dense layer of the aggregated features.

  The grid has 25 points. Point t loads rows 2000 t … 2000 t + 1999 of the aggregated features (the array the host
  operations before the region leave), the whole weight matrix and the bias laid out as a table of one row, and writes
  rows 2000 t … 2000 t + 1999 of the output. Since row n of relu (agg · W + b) depends on row n of agg only, what point t
  writes is exactly the block of rows 2000 t … 2000 t + 1999 of that one array; the 25 blocks tile the 50000 rows
  (row n lies in block n / 2000), so after the run the output array is relu (agg · W + b).
-/
import proofs.«154558_j74818330296985_1_alg».proof.Proof.Gen.KernelIdeal.Value
import proofs.«154558_j74818330296985_1_alg».proof.Proof.BlockValue
import proofs.«154558_j74818330296985_1_alg».proof.Proof.DenseLayer

noncomputable section

namespace Cert.KernelIdeal.LayerValue

open Cert.KernelIdeal Cert.KernelIdeal.Gen Idealize.ShloMosaic Idealize.ShloMosaic.TcCoe Idealize.SL.Sem
open Idealize.ShloMosaic.ValueIdx
open Idealize.ShloMosaic.Pipeline (Dat)
open Cert.DenseLayer

variable (m : (ℓ : Loc nD τ sig) → Buf (Elt Ideal) ℓ) (ρ : Dev nD → PrngReg)

/-- The aggregated features as the region finds them: what the host operations before it leave. -/
abbrev aggArr (c : Dev nD) : FVec Ideal S50000x512 .f32 := V m c main_v32
/-- The bias table of one row as the region finds it. -/
abbrev biasTab (c : Dev nD) : FVec Ideal S1x512 .f32 := V m c main_v33
/-- The weight matrix and the bias as launched. -/
abbrev wArr (c : Dev nD) : FVec Ideal S512x512 .f32 := m ((c : Thread nD τ).loc main_arg3)
abbrev bArr (c : Dev nD) : FVec Ideal S512 .f32 := m ((c : Thread nD τ).loc main_arg4)

theorem hz : (![0, 0] : Fin 2 → Nat) = fun _ => 0 := funext fun a => by fin_cases a <;> rfl

/-- Where each window's block sits at point t: the features' and the output's at block row t, the weights' and the
    bias table's at the origin. Decided over the 25 points. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ t.val < 25 :=
  (by decide +kernel : ∀ t : Fin grid0.N, _)

/-- The host's reshape of the bias to a table of one row keeps entry q at (0, q). -/
theorem biasTab_entry (c : Dev nD) (q : Fin 512) : biasTab m c (ix2 0 q) = bArr m c (ix1 q) := by
  have e : biasTab m c = shapeCast S1x512 (bArr m c) Facts₀.shapeCasts_S512_S1x512 := by
    dsimp only [biasTab, V]
    simp only [hostOps0, hostOps0_1, hostOps0_2, hostOps0_3, hostOps0_4, List.flatten_cons, List.flatten_nil, List.append_nil,
      List.cons_append, List.nil_append]
    after_results
    rfl
  rw [e]
  refine shapeCast_apply (bArr m c) _ (ix2 0 q) (ix1 q) ?_
  rw [Shape.rowMajor_val_one, Shape.rowMajor_val_two]
  show q.val = 0 * 512 + q.val
  omega

/-- Point t's block of the features, at (p, k): row 2000 t + p of the array. -/
theorem agg_block (c : Dev nD) (t : Fin cfg0.N) (p : Fin 2000) (k : Fin 512) (hp : t.val * 2000 + p.val < 50000) :
    iblk m c 0 t (ix2 p k) = aggArr m c (ix2 ⟨t.val * 2000 + p.val, hp⟩ k) := by
  obtain ⟨e00, e01, -, -, -, -, -, -, -⟩ := block_index t
  show aggArr m c (((cfg0.win 0).blk t).view.emb (ix2 p k)) = aggArr m c (ix2 ⟨t.val * 2000 + p.val, hp⟩ k)
  refine congrArg (aggArr m c) (funext fun a => Fin.ext ?_)
  match a with
  | ⟨0, _⟩ => show win0_0.index t (0 : Fin 2) * 2000 + 1 * p.val = t.val * 2000 + p.val; omega
  | ⟨1, _⟩ => show win0_0.index t (1 : Fin 2) * 512 + 1 * k.val = k.val; omega

/-- Every point's block of the weights is the whole matrix as launched. -/
theorem w_block (c : Dev nD) (t : Fin cfg0.N) (k q : Fin 512) : iblk m c 1 t (ix2 k q) = wArr m c (ix2 k q) := by
  obtain ⟨-, -, e10, e11, -, -, -, -, -⟩ := block_index t
  have hV : (V m c main_arg3 : FVec Ideal S512x512 .f32) = wArr m c := V_main_arg3 m c
  show (V m c main_arg3 : FVec Ideal S512x512 .f32) (((cfg0.win 1).blk t).view.emb (ix2 k q)) = wArr m c (ix2 k q)
  rw [hV]
  refine congrArg (wArr m c) (funext fun a => Fin.ext ?_)
  match a with
  | ⟨0, _⟩ => show win0_1.index t (0 : Fin 2) * 512 + 1 * k.val = k.val; omega
  | ⟨1, _⟩ => show win0_1.index t (1 : Fin 2) * 512 + 1 * q.val = q.val; omega

/-- Every point's block of the bias table is the whole table, whose entry (0, q) is the bias at q. -/
theorem bias_block (c : Dev nD) (t : Fin cfg0.N) (q : Fin 512) : iblk m c 2 t (ix2 0 q) = bArr m c (ix1 q) := by
  obtain ⟨-, -, -, -, e20, e21, -, -, -⟩ := block_index t
  rw [← biasTab_entry m c q]
  show biasTab m c (((cfg0.win 2).blk t).view.emb (ix2 0 q)) = biasTab m c (ix2 0 q)
  refine congrArg (biasTab m c) (funext fun a => Fin.ext ?_)
  match a with
  | ⟨0, _⟩ => show win0_2.index t (0 : Fin 2) * 1 + 1 * 0 = 0; omega
  | ⟨1, _⟩ => show win0_2.index t (1 : Fin 2) * 512 + 1 * q.val = q.val; omega

/-- WHAT POINT t WRITES BACK is block t of relu (agg · W + b). -/
theorem flushed_eq (c : Dev nD) (t : Fin cfg0.N) :
    (dats m 0 c).flushed 3 t = ((cfg0.win 3).blk t).view.read (Elt Ideal) (layer (aggArr m c) (wArr m c) (bArr m c)) := by
  rw [Value.flushed3]
  unfold out0_3
  rw [View.canon_unit_zero hz]
  simp only [View.ld_unit_zero (S := S2000x512) hz, View.ld_unit_zero (S := S512x512) hz, View.ld_unit_zero (S := S1x512) hz]
  obtain ⟨-, -, -, -, -, -, e30, e31, ht⟩ := block_index t
  funext j
  obtain ⟨p, q, rfl⟩ : ∃ (p : Fin 2000) (q : Fin 512), j = ix2 p q := ⟨j 0, j 1, eq_ix2 j⟩
  have hp : t.val * 2000 + p.val < 50000 := by have := p.isLt; omega
  have hout : ((cfg0.win 3).blk t).view.emb (ix2 p q) = ix2 (⟨t.val * 2000 + p.val, hp⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 512 + 1 * q.val = q.val; omega
  show k0_pay1 (F := Ideal) (iblk m c 0 t) (iblk m c 1 t) (iblk m c 2 t) (ix2 p q)
    = layer (aggArr m c) (wArr m c) (bArr m c) (((cfg0.win 3).blk t).view.emb (ix2 p q))
  rw [hout, layer_apply]
  refine (BlockValue.stored_entry (iblk m c 0 t) (iblk m c 1 t) (iblk m c 2 t) p q).trans ?_
  unfold entry
  rw [bias_block m c t q]
  refine congrArg (fun s => max (s + bArr m c (ix1 q)) 0) (Finset.sum_congr rfl fun k _ => ?_)
  rw [agg_block m c t p k hp, w_block m c t k q]

/-- An index of the output array is in point t's block iff each coordinate is in the block's range on its axis. -/
theorem mem_blk (t : Fin cfg0.N) (i : S50000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v34).slice (win0_3.rect t)).set ↔ _
  rw [View.set_slice_whole, Rect.mem_set_unit]
  exact Iff.rfl

/-- The 25 blocks of 2000 rows cover the 50000 rows: row n lies in block n / 2000. -/
theorem cover (i : S50000x512.Idx) : ∃ t : Fin cfg0.N, (cfg0.win 3).flush t = true ∧ i ∈ ((cfg0.win 3).blk t).view.set := by
  have hi0 : (i 0).val < 50000 := (i 0).isLt
  have hi1 : (i 1).val < 512 := (i 1).isLt
  have hN : (i 0).val / 2000 < cfg0.N := by show (i 0).val / 2000 < 25; omega
  obtain ⟨-, -, -, -, -, -, e30, e31, -⟩ := block_index ⟨(i 0).val / 2000, hN⟩
  refine ⟨⟨(i 0).val / 2000, hN⟩, flush0_3 _, ?_⟩
  rw [mem_blk]
  intro a
  match a with
  | ⟨0, _⟩ =>
    show win0_3.index ⟨(i 0).val / 2000, hN⟩ (0 : Fin 2) * 2000 ≤ (i 0).val ∧ (i 0).val < win0_3.index ⟨(i 0).val / 2000, hN⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, hN⟩ (1 : Fin 2) * 512 ≤ (i 1).val ∧ (i 1).val < win0_3.index ⟨(i 0).val / 2000, hN⟩ (1 : Fin 2) * 512 + 512
    rw [e31]
    omega

/-- THE OUTPUT ARRAY after the run is relu (agg · W + b). -/
theorem final (c : Dev nD) : (dats m 0 c).arrAt 3 cfg0.N = layer (aggArr m c) (wArr m c) (bArr m c) :=
  (dats m 0 c).arrAt_eq_of_cover 3 (layer (aggArr m c) (wArr m c) (bArr m c)) (fun t _ => flushed_eq m c t) cover

/-- The kernel's run re-posted: the output array at relu (agg · W + b), the arguments unchanged. -/
theorem run : θ_run defs (onTc (τ := τ) (main (F := Ideal))) ⟨m, fun _ => 0, ρ⟩ fun r => ∀ c : Dev nD,
      r.2.mem ((c : Thread nD τ).loc main_v34) = layer (aggArr m c) (wArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.LayerValue

end
-- ==== Proof.ReferenceLayer.lean ====
/-
  The reference's result is the dense layer of its aggregated features.

  After the aggregation the reference multiplies by the weight matrix, adds the bias (laid out as a table of one row and
  repeated down the rows) and takes the maximum with zero. Read at entry (n, o) on the extended reals, the host's matrix
  product is the sum over k of agg (n, k) · W (k, o), the repeated bias is b o, and the rectifier is the maximum with 0:
  relu (agg · W + b) of the stage that holds the aggregated features.
-/
import proofs.«154558_j74818330296985_1_alg».proof.Proof.RefReadPatched
import proofs.«154558_j74818330296985_1_alg».proof.Proof.DenseLayer

noncomputable section

namespace Cert.ReferenceIdeal.LayerValue

open Cert.ReferenceIdeal Cert.ReferenceIdeal.ReadP Idealize.ShloMosaic Idealize.ShloMosaic.ValueIdx
open Cert.DenseLayer

theorem result_is_layer (x0 : FVec Ideal S50000x512 .f32) (x1 x2 : IVec S150000 32) (x3 : FVec Ideal S512x512 .f32) (x4 : FVec Ideal S512 .f32) :
    val_main_v37 (F := Ideal) x0 x1 x2 x3 x4 = layer (val_main_v32 (F := Ideal) x0 x1 x2) x3 x4 := by
  funext i
  obtain ⟨n, o, rfl⟩ : ∃ (n : Fin 50000) (o : Fin 512), i = ix2 n o := ⟨i 0, i 1, eq_ix2 i⟩
  have el : ∀ k : Fin 512, lidx_main_v33 (ix2 n o) k = ix2 n k := fun k => funext fun a => Fin.ext (by
    match a with
    | ⟨0, _⟩ => rfl
    | ⟨1, _⟩ => rfl)
  have er : ∀ k : Fin 512, ridx_main_v33 (ix2 n o) k = ix2 k o := fun k => funext fun a => Fin.ext (by
    match a with
    | ⟨0, _⟩ => rfl
    | ⟨1, _⟩ => rfl)
  have eb : idx_main_v34 (idx_main_v35 (ix2 n o)) = ix1 o := funext fun a => Fin.ext (by
    match a with
    | ⟨0, _⟩ => rfl)
  rw [val_main_v37_apply, val_main_v36_apply, val_main_v33_apply, val_main_v35_apply, val_main_v34_apply,
    val_main_call2_v0_apply, val_main_call2_cst_apply, layer_apply]
  unfold entry
  simp only [el, er, eb, Ideal.maximumf_def, Ideal.addf_def, Ideal.ofBits_def, Ideal.ofBits_zero_f32]

end Cert.ReferenceIdeal.LayerValue

end
-- ==== Proof.SharedAggregation.lean ====
/-
  Both programs aggregate the features in the same way.

  Before the matrix product both programs run the same host operations on the node features and the two edge lists: the
  out-degree of every source and the in-degree of every destination by scatter-adds of ones, each degree replaced by 1
  where it is 0 and raised to the power -1/2, the features scaled by the source factor, gathered along the edges' sources,
  scatter-added into the edges' destinations, and scaled by the destination factor. Operation by operation and constant
  by constant the two chains are one term of the three arguments; so the array the kernel's region finds is the stage of
  the reference that holds the aggregated features. Nothing here looks inside a scatter-add, the gather or the power:
  the chain is carried whole, at any float values.
-/
import proofs.«154558_j74818330296985_1_alg».proof.Proof.Gen.KernelIdeal.Frame
import proofs.«154558_j74818330296985_1_alg».proof.Proof.RefReadPatched

noncomputable section

namespace Cert.Proof.SharedAggregation

open Idealize.ShloMosaic Idealize.ShloMosaic.TcCoe Idealize.SL.Sem

variable {F : FTy → Type} [FloatOps F]

open Cert.KernelIdeal Cert.KernelIdeal.Gen in
/-- The aggregated features the kernel's region finds are the reference's stage of the same three arguments. -/
theorem agg_eq (m : (ℓ : Loc nD τ sig) → Buf (Elt F) ℓ) (c : Dev nD) :
    (V m c main_v32 : FVec F S50000x512 .f32)
      = Cert.ReferenceIdeal.ReadP.val_main_v32 (F := F) (m ((c : Thread nD τ).loc main_arg0)) (m ((c : Thread nD τ).loc main_arg1))
          (m ((c : Thread nD τ).loc main_arg2)) := by
  dsimp only [V]
  simp only [hostOps0, hostOps0_1, hostOps0_2, hostOps0_3, hostOps0_4, List.flatten_cons, List.flatten_nil, List.append_nil,
    List.cons_append, List.nil_append]
  after_results_simp
  rfl

end Cert.Proof.SharedAggregation

end
-- ==== Proof.lean ====
/-
  A graph convolution layer: relu (D_dst^(-1/2) · A · D_src^(-1/2) · X · W + b) over 50000 nodes, 150000 edges, 512 features.

  Both programs aggregate the features on the host in the same way (degrees by scatter-adds of ones, the power -1/2, a
  gather along the edges' sources, a scatter-add into their destinations): one chain of operations of the node features
  and the two edge lists, carried whole (Proof/SharedAggregation.lean). They differ only in the dense layer that follows.
  The reference multiplies the aggregated features by W on the host, adds b and takes the maximum with 0. The kernel
  does that layer in 25 blocks of 2000 rows on the matrix unit, its operands first narrowed to a shorter float format.
  On the extended reals the narrowing is the identity and the unit's product into a zero accumulator is the plain sum over
  the contracted index, so each block is the matching 2000 rows of relu (agg · W + b) (Proof/BlockValue.lean), the blocks
  tile the rows (Proof/KernelLayer.lean), and the reference's last stage is the same function of its own aggregated
  features (Proof/ReferenceLayer.lean). No law beyond reading the two products as the same sum is used, so the
  precondition is never opened.

  The two kernels' frames are the generated ones; the reference's is its run with the result dropped. The ideal pass
  rewrote nothing, so there is nothing to preserve.
-/
import proofs.«154558_j74818330296985_1_alg».proof.Defs
import proofs.«154558_j74818330296985_1_alg».proof.Proof.Gen.Kernel
import proofs.«154558_j74818330296985_1_alg».proof.Proof.Gen.Kernel.Frame
import proofs.«154558_j74818330296985_1_alg».proof.Proof.Gen.KernelIdeal
import proofs.«154558_j74818330296985_1_alg».proof.Proof.Gen.KernelIdeal.Frame
import proofs.«154558_j74818330296985_1_alg».proof.Proof.Gen.KernelIdeal.Value
import proofs.«154558_j74818330296985_1_alg».proof.Proof.Gen.ReferenceIdeal
import proofs.«154558_j74818330296985_1_alg».proof.Proof.Gen.Pre_finite_inputs
import proofs.«154558_j74818330296985_1_alg».proof.Proof.RefRunPatched
import proofs.«154558_j74818330296985_1_alg».proof.Proof.RefReadPatched
import proofs.«154558_j74818330296985_1_alg».proof.Proof.KernelLayer
import proofs.«154558_j74818330296985_1_alg».proof.Proof.ReferenceLayer
import proofs.«154558_j74818330296985_1_alg».proof.Proof.SharedAggregation
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at relu (agg · W + b) of the one aggregation of arguments that agree. -/
theorem algebraic : Cert.algebraic_KernelIdeal_ReferenceIdeal := by
  intro m ρ m' ρ' _ hagree
  refine ⟨fun c => Cert.DenseLayer.layer (Cert.KernelIdeal.LayerValue.aggArr m c) (Cert.KernelIdeal.LayerValue.wArr m c)
    (Cert.KernelIdeal.LayerValue.bArr m c), Cert.KernelIdeal.LayerValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v37_eq, Cert.ReferenceIdeal.LayerValue.result_is_layer,
    (hagree c).1, (hagree c).2.1, (hagree c).2.2.1, (hagree c).2.2.2.1, (hagree c).2.2.2.2]
  exact congrArg (fun a => Cert.DenseLayer.layer a (Cert.KernelIdeal.LayerValue.wArr m c) (Cert.KernelIdeal.LayerValue.bArr m c))
    (Cert.Proof.SharedAggregation.agg_eq (F := Ideal) m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
